-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x256 : Shape := ⟨2, ![512, 256]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S1024x512 .f32) (main_arg1 : FVec F S512x256 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Kernel.lean ====
abbrev S1024x512 : Shape := ⟨2, ![1024, 512]⟩
abbrev S512x256 : Shape := ⟨2, ![512, 256]⟩
abbrev S1024x256 : Shape := ⟨2, ![1024, 256]⟩
abbrev S64x128 : Shape := ⟨2, ![64, 128]⟩
abbrev S128x256 : Shape := ⟨2, ![128, 256]⟩
abbrev S64x256 : Shape := ⟨2, ![64, 256]⟩
abbrev S64x128x1 : Shape := ⟨3, ![64, 128, 1]⟩
abbrev S1x128x256 : Shape := ⟨3, ![1, 128, 256]⟩
abbrev S64x128x256 : Shape := ⟨3, ![64, 128, 256]⟩

abbrev nBuf : Space → Nat
  | .hbm => 3
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S512x256, .f32⟩
  | .hbm, ⟨2, _⟩ => ⟨S1024x256, .f32⟩
  | .local _ .vmem, ⟨0, _⟩ => ⟨S64x128, .f32⟩
  | .local _ .vmem, ⟨1, _⟩ => ⟨S64x128, .f32⟩
  | .local _ .vmem, ⟨2, _⟩ => ⟨S128x256, .f32⟩
  | .local _ .vmem, ⟨3, _⟩ => ⟨S128x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x128_S64x128_0_0 : ∀ a, (![0, 0] : Fin 2 → Nat) a + S64x128.size a ≤ S64x128.size a
  h_S64x128 : 0 < S64x128.numel
  inb_S128x256_S128x256_0_0 : ∀ a, (![0, 0] : Fin 2 → Nat) a + S128x256.size a ≤ S128x256.size a
  h_S128x256 : 0 < S128x256.numel
  shapeCasts_S64x128_S64x128x1 : S64x128.ShapeCasts S64x128x1
  shapeCasts_S128x256_S1x128x256 : S128x256.ShapeCasts S1x128x256
  broadcasts_S64x128x1_S64x128x256 : S64x128x1.Broadcasts S64x128x256
  broadcasts_S1x128x256_S64x128x256 : S1x128x256.Broadcasts S64x128x256
  reduces_S64x128x256_S64x256 : S64x128x256.Reduces [1] S64x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S1024x512.size a
  hwx0_0 : ∀ i : grid0.Coords, EltTy.bits .f32 = 32 ∨ (Rect.block (s := S1024x512) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S512x256.size a
  hwx0_1 : ∀ i : grid0.Coords, EltTy.bits .f32 = 32 ∨ (Rect.block (s := S512x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S1024x256.size a
  hwx0_2 : ∀ i : grid0.Coords, EltTy.bits .f32 = 32 ∨ (Rect.block (s := S1024x256) S64x256.size (cc0_transform_2 i) (hinb0_2 i)).WholeWords (EltTy.packing .f32)

variable [Facts₀]

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1024x512 : Shape := ⟨2, ![1024, 512]⟩
abbrev S512x256 : Shape := ⟨2, ![512, 256]⟩
abbrev S_ : Shape := ⟨0, ![]⟩
abbrev S1024x512x1 : Shape := ⟨3, ![1024, 512, 1]⟩
abbrev S1x512x256 : Shape := ⟨3, ![1, 512, 256]⟩
abbrev S1024x512x256 : Shape := ⟨3, ![1024, 512, 256]⟩
abbrev S1024x256 : Shape := ⟨2, ![1024, 256]⟩

abbrev nBuf : Space → Nat
  | .hbm => 17
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x256, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S1024x512x1, .f32⟩
  | .hbm, ⟨11, _⟩ => ⟨S1x512x256, .f32⟩
  | .hbm, ⟨12, _⟩ => ⟨S1024x512x256, .f32⟩
  | .hbm, ⟨13, _⟩ => ⟨S1024x512x256, .f32⟩
  | .hbm, ⟨14, _⟩ => ⟨S1024x512x256, .f32⟩
  | .hbm, ⟨15, _⟩ => ⟨S_, .f32⟩
  | .hbm, ⟨16, _⟩ => ⟨S1024x256, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩

abbrev nD : Nat := 1
abbrev τ : Topo := Topo.v7x

variable {F : FTy → Type} [FloatOps F]

class Facts₀ : Prop where
  bcast_S_S512x256 : S_.BroadcastsInDim S512x256 (![] : Fin 0 → Fin S512x256.rank)
  bcast_S1024x512_S1024x512x1_0_1 : S1024x512.BroadcastsInDim S1024x512x1 (![0, 1] : Fin 2 → Fin S1024x512x1.rank)
  bcast_S512x256_S1x512x256_1_2 : S512x256.BroadcastsInDim S1x512x256 (![1, 2] : Fin 2 → Fin S1x512x256.rank)
  bcast_S1024x512x1_S1024x512x256_0_1_2 : S1024x512x1.BroadcastsInDim S1024x512x256 (![0, 1, 2] : Fin 3 → Fin S1024x512x256.rank)
  bcast_S1x512x256_S1024x512x256_0_1_2 : S1x512x256.BroadcastsInDim S1024x512x256 (![0, 1, 2] : Fin 3 → Fin S1024x512x256.rank)
  reducesTo_S1024x512x256_S1024x256_d1 : S1024x512x256.ReducesTo [1] S1024x256
  h_S_ : 0 < S_.numel

variable [Facts₀]

class Facts : Prop extends Facts₀ where

variable [Facts]
-- ==== Proof.KernelPieces.lean ====
/-
  What one grid point leaves behind, as values. The body keeps a running block `acc` (64 × 256) in a scratch buffer:
  at the first reduction step it stores the block of −∞ and reads it back; at every step it stores the update
  `max acc partial`, where `partial` is the row-against-column max–min of the step's two input blocks; at the
  last reduction step it then copies the scratch into the output block. So after any step the scratch holds the update
  of what it held before (of the −∞ block at a first step), and at a last step the output block holds that same update.
  The update is the body's one arithmetic payload, kept here as a single term of the two input blocks and `acc`.
-/
import proofs.«122941_j56281251447399_1_alg».proof.Proof.Gen.KernelIdeal.Frame
import Idealize.ShloMosaic.Lib.Pipeline.Value
import Idealize.ShloMosaic.Lib.Tactic

noncomputable section

namespace Cert.KernelIdeal.Step

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A first reduction step: the scratch is reset to the −∞ block, read back, and ends at the update of that block. -/
theorem scratch_first (c : Dev nD) (i : grid0.Coords) (a2 : Memref sig .tc .vmem S64x128 .f32) (h2 : a2.IsWhole)
    (a3 : Memref sig .tc .vmem S128x256 .f32) (h3 : a3.IsWhole) (a4 : Memref sig .tc .vmem S64x256 .f32) (h4 : a4.IsWhole)
    (a5 : Memref sig .tc .vmem S64x256 .f32) (h5 : a5.IsWhole) (hc0 : cond0_0 i) (hc1 : ¬cond0_1 i)
    (x0 : Vec F S64x128 .f32) (x1 : Vec F S128x256 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S64x256) hz, View.readCov_unit_zero (S := S64x256) _ hz]
  simp only [View.readAt_eq_ld, h2.read_unread, h3.read_unread, View.ld_unit_zero (S := S64x128) hz,
    View.ld_unit_zero (S := S128x256) hz, View.ld_unit_zero (S := S64x256) hz]

/-- A middle reduction step (neither first nor last): the scratch ends at the update of what it held. -/
theorem scratch_mid (c : Dev nD) (i : grid0.Coords) (a2 : Memref sig .tc .vmem S64x128 .f32) (h2 : a2.IsWhole)
    (a3 : Memref sig .tc .vmem S128x256 .f32) (h3 : a3.IsWhole) (a4 : Memref sig .tc .vmem S64x256 .f32) (h4 : a4.IsWhole)
    (a5 : Memref sig .tc .vmem S64x256 .f32) (h5 : a5.IsWhole) (hc0 : ¬cond0_0 i) (hc1 : ¬cond0_1 i)
    (x0 : Vec F S64x128 .f32) (x1 : Vec F S128x256 .f32) (acc : Vec F S64x256 .f32) :
    sout0_B_0 c i a2 h2 a3 h3 a4 h4 a5 h5 hc0 hc1 x0 x1 acc = k0_pay2 x0 x1 acc := by
  unfold sout0_B_0
  rw [View.read_writes_eq_canon _ _ _ (scover0_B_0 c i a2 h2 a3 h3 a4 h4 a5 h5 hc0 hc1 x0 x1 acc)]
  unfold kernelRun0_B
  dsimp only
  sl_unfold_words
  rw [View.canon_unit_zero hz]
  simp only [View.readAt_eq_ld, h2.read_unread, h3.read_unread, h5.read_unread, View.ld_unit_zero (S := S64x128) hz,
    View.ld_unit_zero (S := S128x256) hz, View.ld_unit_zero (S := S64x256) hz]

/-- A last reduction step: the scratch ends at the update of what it held, -/
theorem scratch_last (c : Dev nD) (i : grid0.Coords) (a2 : Memref sig .tc .vmem S64x128 .f32) (h2 : a2.IsWhole)
    (a3 : Memref sig .tc .vmem S128x256 .f32) (h3 : a3.IsWhole) (a4 : Memref sig .tc .vmem S64x256 .f32) (h4 : a4.IsWhole)
    (a5 : Memref sig .tc .vmem S64x256 .f32) (h5 : a5.IsWhole) (hc0 : ¬cond0_0 i) (hc1 : cond0_1 i)
    (x0 : Vec F S64x128 .f32) (x1 : Vec F S128x256 .f32) (acc : Vec F S64x256 .f32) :
    sout0_C_0 c i a2 h2 a3 h3 a4 h4 a5 h5 hc0 hc1 x0 x1 acc = k0_pay2 x0 x1 acc := by
  unfold sout0_C_0
  rw [View.read_writes_eq_canon _ _ _ (scover0_C_0 c i a2 h2 a3 h3 a4 h4 a5 h5 hc0 hc1 x0 x1 acc)]
  unfold kernelRun0_C
  dsimp only
  sl_unfold_words
  rw [View.canon_unit_zero hz]
  simp only [View.readAt_eq_ld, h2.read_unread, h3.read_unread, h5.read_unread, View.ld_unit_zero (S := S64x128) hz,
    View.ld_unit_zero (S := S128x256) hz, View.ld_unit_zero (S := S64x256) hz]

/-- and the output block, a copy of the scratch just stored, holds the same update. -/
theorem out_last (c : Dev nD) (i : grid0.Coords) (a2 : Memref sig .tc .vmem S64x128 .f32) (h2 : a2.IsWhole)
    (a3 : Memref sig .tc .vmem S128x256 .f32) (h3 : a3.IsWhole) (a4 : Memref sig .tc .vmem S64x256 .f32) (h4 : a4.IsWhole)
    (a5 : Memref sig .tc .vmem S64x256 .f32) (h5 : a5.IsWhole) (hc0 : ¬cond0_0 i) (hc1 : cond0_1 i)
    (x0 : Vec F S64x128 .f32) (x1 : Vec F S128x256 .f32) (acc : Vec F S64x256 .f32) :
    out0_C_2 c i a2 h2 a3 h3 a4 h4 a5 h5 hc0 hc1 x0 x1 acc = k0_pay2 x0 x1 acc := by
  unfold out0_C_2
  rw [View.read_writes_eq_canon _ _ _ (cover0_C_2 c i a2 h2 a3 h3 a4 h4 a5 h5 hc0 hc1 x0 x1 acc)]
  unfold kernelRun0_C
  dsimp only
  sl_unfold_words
  rw [View.canon_unit_zero hz]
  simp only [View.readAt_eq_ld, h2.read_unread, h3.read_unread, h5.read_unread, View.ld_unit_zero (S := S64x128) hz,
    View.ld_unit_zero (S := S128x256) hz, View.ld_unit_zero (S := S64x256) hz, View.readCov_unit_zero (S := S64x256) _ hz]

end Cert.KernelIdeal.Step

end
-- ==== Proof.MaxMinSpec.lean ====
/-
  The max–min product on the extended reals. For a membership matrix `m` (1024 × 512) and a weight matrix `w`
  (512 × 256), the result at (b, o) is the join over the 512 reduction indices i of `min m[b,i] (clamp w[i,o])`, where
  `clamp x = min 1 (max 0 x)` and the join is the lattice supremum, whose empty value is the bottom element −∞.
  Besides the definition this module holds the one law the two programs differ by: a join over an initial segment of
  the reduction indices, extended by the next 128 of them, is the `max` of the segment's join and the join over those
  128 — joins are associative, commutative and idempotent, so no finiteness of the entries is needed, and −∞ is the
  unit of `max`.
-/
import Idealize.ShloMosaic.PureOps.Ideal
import Idealize.ShloMosaic.PureOps.Ideal.Laws
import Idealize.ShloMosaic.Lib.ValueIdx

noncomputable section

namespace Cert.MaxMin

open Idealize.ShloMosaic Idealize.ShloMosaic.ValueIdx

/-- The f32 word of −∞ denotes the bottom of the extended reals. -/
theorem negInf_eq_bot : Ideal.ofBits .f32 0xFF800000#32 = (⊥ : EReal) := by simp [Ideal.ofBits, Ideal.ieee]

/-- A weight clamped into [0, 1]: `min 1 (max 0 x)`, the two bounds kept as their f32 words. -/
def clamp (x : EReal) : EReal := min (Ideal.ofBits .f32 0x3F800000#32) (max (Ideal.ofBits .f32 0x00000000#32) x)

/-- One term of the product: row `b` of `m` against column `o` of the clamped `w`, at reduction index `i`. -/
def term (m : (⟨2, ![1024, 512]⟩ : Shape).Idx → EReal) (w : (⟨2, ![512, 256]⟩ : Shape).Idx → EReal)
    (b : Fin 1024) (o : Fin 256) (i : Fin 512) : EReal :=
  min (m (ix2 b i)) (clamp (w (ix2 i o)))

/-- The join of the terms whose reduction index is below `n`. -/
def upTo (m : (⟨2, ![1024, 512]⟩ : Shape).Idx → EReal) (w : (⟨2, ![512, 256]⟩ : Shape).Idx → EReal)
    (b : Fin 1024) (o : Fin 256) (n : ℕ) : EReal :=
  (Finset.univ.filter fun i : Fin 512 => i.val < n).sup (term m w b o)

/-- The max–min product: at (b, o) the join of all 512 terms. -/
def prod (m : (⟨2, ![1024, 512]⟩ : Shape).Idx → EReal) (w : (⟨2, ![512, 256]⟩ : Shape).Idx → EReal) :
    (⟨2, ![1024, 256]⟩ : Shape).Idx → EReal :=
  fun j => Finset.univ.sup (term m w (j 0) (j 1))

variable (m : (⟨2, ![1024, 512]⟩ : Shape).Idx → EReal) (w : (⟨2, ![512, 256]⟩ : Shape).Idx → EReal)
  (b : Fin 1024) (o : Fin 256)

/-- A fold of `max` from −∞ is the join. -/
theorem fold_max_eq_sup {ι : Type*} (s : Finset ι) (f : ι → EReal) :
    s.fold max (Ideal.ofBits .f32 0xFF800000#32) f = s.sup f := by
  rw [negInf_eq_bot]; rfl

/-- No term has its index below 0: the empty join. -/
theorem upTo_zero : upTo m w b o 0 = ⊥ := by
  unfold upTo
  rw [Finset.filter_false_of_mem (fun i _ => Nat.not_lt_zero _), Finset.sup_empty]

/-- Every index is below 512: the whole join. -/
theorem upTo_all : upTo m w b o 512 = Finset.univ.sup (term m w b o) := by
  unfold upTo
  rw [Finset.filter_true_of_mem (fun i _ => i.isLt)]

/-- Extending the segment by the next 128 indices: the `max` with the join over those. -/
theorem upTo_add (n : ℕ) (hn : n + 128 ≤ 512) :
    upTo m w b o (n + 128)
      = max (upTo m w b o n) (Finset.univ.sup fun k : Fin 128 => term m w b o ⟨n + k.val, by have := k.isLt; omega⟩) := by
  unfold upTo
  apply le_antisymm
  · refine Finset.sup_le fun i hi => ?_
    have hi' : i.val < n + 128 := (Finset.mem_filter.mp hi).2
    by_cases h : i.val < n
    · exact le_max_of_le_left (Finset.le_sup (f := term m w b o) (Finset.mem_filter.mpr ⟨Finset.mem_univ _, h⟩))
    · refine le_max_of_le_right ?_
      have hk : i.val - n < 128 := by omega
      have e : i = ⟨n + (⟨i.val - n, hk⟩ : Fin 128).val, by have := i.isLt; omega⟩ := Fin.ext (by simp only; omega)
      rw [e]
      exact Finset.le_sup (f := fun k : Fin 128 => term m w b o ⟨n + k.val, by have := k.isLt; omega⟩) (Finset.mem_univ _)
  · refine max_le (Finset.sup_mono fun i hi => ?_) (Finset.sup_le fun k _ => ?_)
    · exact Finset.mem_filter.mpr ⟨Finset.mem_univ _, by have := (Finset.mem_filter.mp hi).2; omega⟩
    · exact Finset.le_sup (f := term m w b o) (Finset.mem_filter.mpr ⟨Finset.mem_univ _, by have := k.isLt; simp only; omega⟩)

end Cert.MaxMin

end
-- ==== Proof.KernelUpdate.lean ====
/-
  The update of the running block, read at one entry. At row `r` and column `o` of the 64 × 256 block the update of
  `acc` by the input blocks `x0` (64 × 128, rows of `m`) and `x1` (128 × 256, rows of `w`) is
  `max acc[r,o] (⨆ k < 128, min x0[r,k] (clamp x1[k,o]))`: the two blocks are laid along a third axis by a cast and a
  broadcast each, which only re-index; the lane reduction with body `max` from −∞ over the middle axis is the join over
  its 128 coordinates.
-/
import proofs.«122941_j56281251447399_1_alg».proof.Proof.Gen.KernelIdeal.Skeleton
import proofs.«122941_j56281251447399_1_alg».proof.Proof.MaxMinSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Step

open Cert.KernelIdeal Cert.KernelIdeal.Gen Idealize.ShloMosaic Idealize.ShloMosaic.ValueIdx

/-- A 64 × 128 block cast to 64 × 128 × 1 reads, at (r, k, u), the block at (r, k). -/
theorem cast_col {α : Type} (x : S64x128.Idx → α) (h : S64x128.ShapeCasts S64x128x1) (r : Fin 64) (k : Fin 128) (u : Fin 1) :
    shapeCast S64x128x1 x h (ix3 r k u) = x (ix2 r k) :=
  shapeCast_apply x h _ _ (by
    have hu : u.val = 0 := by omega
    rw [Shape.rowMajor_val_three, Shape.rowMajor_val_two]
    show r.val * 128 + k.val = (r.val * 128 + k.val) * 1 + u.val
    omega)

/-- The rows of `m`, laid along the output's column axis: (r, k, o) reads the block at (r, k). -/
theorem along_cols {α : Type} (x : S64x128.Idx → α) (h9 : S64x128.ShapeCasts S64x128x1) (h11 : S64x128x1.Broadcasts S64x128x256)
    (r : Fin 64) (k : Fin 128) (o : Fin 256) :
    broadcastTo S64x128x256 (shapeCast S64x128x1 x h9) h11 (ix3 r k o) = x (ix2 r k) := by
  refine (broadcastTo_apply _ h11 (ix3 r k o) (ix3 r k (0 : Fin 1)) fun a => ?_).trans (cast_col x h9 r k 0)
  match a with
  | ⟨0, _⟩ => show r.val = if (64 : ℕ) = 1 then 0 else r.val; rw [if_neg (by decide)]
  | ⟨1, _⟩ => show k.val = if (128 : ℕ) = 1 then 0 else k.val; rw [if_neg (by decide)]
  | ⟨2, _⟩ => show 0 = if (1 : ℕ) = 1 then 0 else o.val; rw [if_pos rfl]

/-- The rows of `w`, laid along the output's row axis: (r, k, o) reads the block at (k, o). -/
theorem along_rows {α : Type} (x : S128x256.Idx → α) (h10 : S128x256.ShapeCasts S1x128x256) (h12 : S1x128x256.Broadcasts S64x128x256)
    (r : Fin 64) (k : Fin 128) (o : Fin 256) :
    broadcastTo S64x128x256 (shapeCast S1x128x256 x h10) h12 (ix3 r k o) = x (ix2 k o) := by
  refine (broadcastTo_apply _ h12 (ix3 r k o) (ix3 (0 : Fin 1) k o) fun a => ?_).trans (shapeCast_ab_1ab_apply x h10 0 k o)
  match a with
  | ⟨0, _⟩ => show 0 = if (1 : ℕ) = 1 then 0 else r.val; rw [if_pos rfl]
  | ⟨1, _⟩ => show k.val = if (128 : ℕ) = 1 then 0 else k.val; rw [if_neg (by decide)]
  | ⟨2, _⟩ => show o.val = if (256 : ℕ) = 1 then 0 else o.val; rw [if_neg (by decide)]

/-- The rank-3 index over (r, o) with middle coordinate k is (r, k, o). -/
theorem lift_mid (h : S64x128x256.Reduces [1] S64x256) (r : Fin 64) (o : Fin 256) (k : Fin 128) :
    h.lift (ix2 r o) k = ix3 r k o := by
  funext a
  match a with
  | ⟨0, _⟩ => exact Fin.ext rfl
  | ⟨1, _⟩ => exact Fin.ext rfl
  | ⟨2, _⟩ => exact Fin.ext rfl

/-- A lane reduction with body `max` from −∞ over the middle axis is the join over its 128 coordinates. -/
theorem lane_max (v : FVec Ideal S64x128x256 .f32) (h : S64x128x256.Reduces [1] S64x256) (hφ : FKind.Formats .f32)
    (hacc : (0xFF800000#32 : BitVec 32) = FKind.maximumf.neutral .f32 hφ) (r : Fin 64) (o : Fin 256) :
    multiReduction .maximumf [1] S64x256 v 0xFF800000#32 h hφ hacc (ix2 r o) = Finset.univ.sup fun k : Fin 128 => v (ix3 r k o) := by
  rw [Ideal.multiReduction_maximumf_single]
  show (Finset.univ : Finset (Fin 128)).fold max (Ideal.ofBits .f32 0xFF800000#32) (fun k : Fin 128 => v (h.lift (ix2 r o) k)) = _
  rw [Cert.MaxMin.fold_max_eq_sup]
  exact Finset.sup_congr rfl fun k _ => by rw [lift_mid]

/-- The block a first step resets the scratch to is −∞ everywhere. -/
theorem reset_apply (r : Fin 64) (o : Fin 256) : k0_pay1 (F := Ideal) (ix2 r o) = (⊥ : EReal) := by
  unfold k0_pay1
  rw [shapeCast_self, broadcast_apply]
  exact Cert.MaxMin.negInf_eq_bot

/-- The update at (r, o). -/
theorem update_apply (x0 : Vec Ideal S64x128 .f32) (x1 : Vec Ideal S128x256 .f32) (acc : Vec Ideal S64x256 .f32)
    (r : Fin 64) (o : Fin 256) :
    k0_pay2 (F := Ideal) x0 x1 acc (ix2 r o)
      = max (acc (ix2 r o)) (Finset.univ.sup fun k : Fin 128 => min (x0 (ix2 r k)) (Cert.MaxMin.clamp (x1 (ix2 k o)))) := by
  unfold k0_pay2
  dsimp only
  rw [shapeCast_self, maximumf_apply]
  refine congrArg (max (acc (ix2 r o))) ((lane_max _ _ _ _ r o).trans (Finset.sup_congr rfl fun k _ => ?_))
  rw [minimumf_apply, along_cols, along_rows]
  rfl

end Cert.KernelIdeal.Step

end
-- ==== Proof.KernelRun.lean ====
/-
  The kernel's result array is the max–min product. The grid is 16 row tiles × 4 reduction steps, step-minor: point
  t works on rows 64·(t / 4) … + 63 of `m` and on reduction indices 128·(t % 4) … + 127. By induction on the point, after
  point t the scratch block holds, at (r, o), the join of the terms of row 64·(t / 4) + r and column o whose
  reduction index is below 128·(t % 4) + 128: a first step starts from −∞, the empty join, and every step extends
  the segment by its 128 indices (the join's segment law). At a last step (t % 4 = 3) the segment is all 512 indices and
  the output block, a copy of the scratch, is written back to rows 64·(t / 4) … of the result; those sixteen blocks
  tile the result array.
-/
import proofs.«122941_j56281251447399_1_alg».proof.Proof.Gen.KernelIdeal.Value
import proofs.«122941_j56281251447399_1_alg».proof.Proof.KernelPieces
import proofs.«122941_j56281251447399_1_alg».proof.Proof.KernelUpdate
import proofs.«122941_j56281251447399_1_alg».proof.Proof.MaxMinSpec
import Idealize.ShloMosaic.Lib.Pipeline.Value
import Idealize.ShloMosaic.Lib.ValueIdx

noncomputable section

namespace Cert.KernelIdeal.Step

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The two argument arrays and, per point, the two input blocks, at their literal types. -/
abbrev marr (c : Dev nD) : Vec Ideal S1024x512 .f32 := m ((c : Thread nD τ).loc main_arg0)
abbrev warr (c : Dev nD) : Vec Ideal S512x256 .f32 := m ((c : Thread nD τ).loc main_arg1)
abbrev mblk (c : Dev nD) (t : Fin cfg0.N) : Vec Ideal S64x128 .f32 := iblk m c 0 t
abbrev wblk (c : Dev nD) (t : Fin cfg0.N) : Vec Ideal S128x256 .f32 := iblk m c 1 t

/-- The block indices of the three windows at point t: row tile t / 4, reduction step t % 4. -/
theorem idx_facts : ∀ t : Fin cfg0.N, win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

/-- Row r of point t's tile, as a row of the arrays; -/
def rowAt (t : Fin cfg0.N) (r : Fin 64) : Fin 1024 :=
  ⟨64 * (t.val / 4) + r.val, by have := lt_of_lt_of_eq t.isLt (show cfg0.N = 64 from N_0); have := r.isLt; omega⟩
/-- reduction index k of point t's step, as a reduction index of the arrays. -/
def redAt (t : Fin cfg0.N) (k : Fin 128) : Fin 512 :=
  ⟨128 * (t.val % 4) + k.val, by have := k.isLt; omega⟩

/-- The `m` block of point t at (r, k) is `m` at (row r of the tile, index k of the step). -/
theorem mblk_apply (c : Dev nD) (t : Fin cfg0.N) (r : Fin 64) (k : Fin 128) :
    mblk m c t (ix2 r k) = marr m c (ix2 (rowAt t r) (redAt t k)) := by
  obtain ⟨e0, e1, -⟩ := idx_facts t
  show ((cfg0.win 0).blk t).view.read (Elt Ideal) (V m c (Pipeline.arrRef spec0 0)) (ix2 r k) = _
  rw [View.read_apply]
  show V m c main_arg0 _ = m (c.tc.loc main_arg0) _
  congr 1
  funext a
  apply Fin.ext
  match a with
  | ⟨0, _⟩ => show win0_0.index t (0 : Fin 2) * 64 + 1 * r.val = 64 * (t.val / 4) + r.val; rw [e0]; omega
  | ⟨1, _⟩ => show win0_0.index t (1 : Fin 2) * 128 + 1 * k.val = 128 * (t.val % 4) + k.val; rw [e1]; omega

/-- The `w` block of point t at (k, o) is `w` at (index k of the step, o). -/
theorem wblk_apply (c : Dev nD) (t : Fin cfg0.N) (k : Fin 128) (o : Fin 256) :
    wblk m c t (ix2 k o) = warr m c (ix2 (redAt t k) o) := by
  obtain ⟨-, -, e2, e3, -⟩ := idx_facts t
  show ((cfg0.win 1).blk t).view.read (Elt Ideal) (V m c (Pipeline.arrRef spec0 1)) (ix2 k o) = _
  rw [View.read_apply]
  show V m c main_arg1 _ = m (c.tc.loc main_arg1) _
  congr 1
  funext a
  apply Fin.ext
  match a with
  | ⟨0, _⟩ => show win0_1.index t (0 : Fin 2) * 128 + 1 * k.val = 128 * (t.val % 4) + k.val; rw [e2]; omega
  | ⟨1, _⟩ => show win0_1.index t (1 : Fin 2) * 256 + 1 * o.val = o.val; rw [e3]; omega

/-- ONE STEP: if the block held the join over the indices below the step's first, its update holds the join over the
    indices through the step's last. -/
theorem step_apply (c : Dev nD) (t : Fin cfg0.N) (prev : Vec Ideal S64x256 .f32) (r : Fin 64) (o : Fin 256)
    (hprev : prev (ix2 r o) = Cert.MaxMin.upTo (marr m c) (warr m c) (rowAt t r) o (128 * (t.val % 4))) :
    k0_pay2 (F := Ideal) (mblk m c t) (wblk m c t) prev (ix2 r o)
      = Cert.MaxMin.upTo (marr m c) (warr m c) (rowAt t r) o (128 * (t.val % 4) + 128) := by
  refine (update_apply (mblk m c t) (wblk m c t) prev r o).trans ?_
  rw [hprev, Cert.MaxMin.upTo_add _ _ _ _ _ (by omega)]
  congr 1
  refine Finset.sup_congr rfl fun k _ => ?_
  rw [mblk_apply, wblk_apply]
  rfl

/-- A FIRST step (t % 4 = 0) starts from the −∞ block, the empty join, so the scratch ends at the join over the step's
    own 128 indices. -/
theorem scratch_first_eq (c : Dev nD) (t : Fin cfg0.N) (h0 : t.val % 4 = 0) (r : Fin 64) (o : Fin 256) :
    (outsAt0 m c t.val t.isLt).2 (ix2 r o)
      = Cert.MaxMin.upTo (marr m c) (warr m c) (rowAt t r) o (128 * (t.val % 4) + 128) := by
  have h1 : ¬t.val % 4 = 3 := by omega
  rw [outsAt0_A m c t h0 h1]
  dsimp only
  refine (congrFun (scratch_first (F := Ideal) c (grid0.coords t) (ms0_0 t) (hs0_0 t) (ms0_1 t) (hs0_1 t) (ms0_2 t) (hs0_2 t)
    scM0_0 (Memref.isWhole_whole _) ((hcond0_0 t).mpr h0) (fun h => h1 ((hcond0_1 t).mp h)) (mblk m c t) (wblk m c t))
    (ix2 r o)).trans ?_
  refine step_apply m c t _ r o ?_
  rw [reset_apply, h0, Nat.mul_zero, Cert.MaxMin.upTo_zero]

/-- A LATER step (t % 4 ≠ 0) extends what the point before left in the scratch. -/
theorem scratch_next_eq (c : Dev nD) (t : Fin cfg0.N) (h0 : ¬t.val % 4 = 0) (r : Fin 64) (o : Fin 256)
    (ih : (outsAt0 m c (t.val - 1) (Nat.lt_of_le_of_lt (Nat.sub_le _ _) t.isLt)).2 (ix2 r o)
      = Cert.MaxMin.upTo (marr m c) (warr m c) (rowAt t r) o (128 * (t.val % 4))) :
    (outsAt0 m c t.val t.isLt).2 (ix2 r o)
      = Cert.MaxMin.upTo (marr m c) (warr m c) (rowAt t r) o (128 * (t.val % 4) + 128) := by
  by_cases h1 : t.val % 4 = 3
  · rw [outsAt0_C m c t h0 h1]
    dsimp only
    refine (congrFun (scratch_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (mblk m c t) (wblk m c t)
      (outsAt0 m c (t.val - 1) (Nat.lt_of_le_of_lt (Nat.sub_le _ _) t.isLt)).2) (ix2 r o)).trans ?_
    exact step_apply m c t _ r o ih
  · rw [outsAt0_B m c t h0 h1]
    dsimp only
    refine (congrFun (scratch_mid (F := Ideal) c (grid0.coords t) (ms0_0 t) (hs0_0 t) (ms0_1 t) (hs0_1 t) (ms0_2 t) (hs0_2 t)
      scM0_0 (Memref.isWhole_whole _) (fun h => h0 ((hcond0_0 t).mp h)) (fun h => h1 ((hcond0_1 t).mp h)) (mblk m c t) (wblk m c t)
      (outsAt0 m c (t.val - 1) (Nat.lt_of_le_of_lt (Nat.sub_le _ _) t.isLt)).2) (ix2 r o)).trans ?_
    exact step_apply m c t _ r o ih

/-- At a LAST step (t % 4 = 3) the output block holds the same extension. -/
theorem out_last_eq (c : Dev nD) (t : Fin cfg0.N) (h1 : t.val % 4 = 3) (r : Fin 64) (o : Fin 256)
    (ih : (outsAt0 m c (t.val - 1) (Nat.lt_of_le_of_lt (Nat.sub_le _ _) t.isLt)).2 (ix2 r o)
      = Cert.MaxMin.upTo (marr m c) (warr m c) (rowAt t r) o (128 * (t.val % 4))) :
    (outsAt0 m c t.val t.isLt).1 (ix2 r o)
      = Cert.MaxMin.upTo (marr m c) (warr m c) (rowAt t r) o (128 * (t.val % 4) + 128) := by
  have h0 : ¬t.val % 4 = 0 := by omega
  rw [outsAt0_C m c t h0 h1]
  dsimp only
  refine (congrFun (out_last (F := Ideal) c (grid0.coords t) (ms0_0 t) (hs0_0 t) (ms0_1 t) (hs0_1 t) (ms0_2 t) (hs0_2 t)
    scM0_0 (Memref.isWhole_whole _) (fun h => h0 ((hcond0_0 t).mp h)) ((hcond0_1 t).mpr h1) (mblk m c t) (wblk m c t)
    (outsAt0 m c (t.val - 1) (Nat.lt_of_le_of_lt (Nat.sub_le _ _) t.isLt)).2) (ix2 r o)).trans ?_
  exact step_apply m c t _ r o ih

/-- THE INVARIANT, by induction on the point: after point n the scratch holds, at (r, o), the join of the terms of the
    tile's row r and column o over the reduction indices below 128·(n % 4) + 128. -/
theorem scratch_eq (c : Dev nD) : ∀ (n : ℕ) (h : n < cfg0.N) (r : Fin 64) (o : Fin 256),
    (outsAt0 m c n h).2 (ix2 r o)
      = Cert.MaxMin.upTo (marr m c) (warr m c) (rowAt ⟨n, h⟩ r) o (128 * (n % 4) + 128)
  | 0, h, r, o => scratch_first_eq m c ⟨0, h⟩ rfl r o
  | n + 1, h, r, o => by
    by_cases h0 : (n + 1) % 4 = 0
    · exact scratch_first_eq m c ⟨n + 1, h⟩ h0 r o
    · refine scratch_next_eq m c ⟨n + 1, h⟩ h0 r o ?_
      have e1 : rowAt ⟨n, Nat.lt_of_succ_lt h⟩ r = rowAt ⟨n + 1, h⟩ r :=
        Fin.ext (by show 64 * (n / 4) + r.val = 64 * ((n + 1) / 4) + r.val; omega)
      have e2 : 128 * (n % 4) + 128 = 128 * ((n + 1) % 4) := by omega
      have ih := scratch_eq c n (Nat.lt_of_succ_lt h) r o
      rw [e1, e2] at ih
      exact ih

/-- So the block a last step writes back is the product's rows 64·(t / 4) … + 63. -/
theorem out_block_eq (c : Dev nD) (t : Fin cfg0.N) (h1 : t.val % 4 = 3) (j : S64x256.Idx) :
    (outsAt0 m c t.val t.isLt).1 j = Cert.MaxMin.prod (marr m c) (warr m c) (ix2 (rowAt t (j 0)) (j 1)) := by
  obtain ⟨r, o, rfl⟩ : ∃ (r : Fin 64) (o : Fin 256), j = ix2 r o := ⟨j 0, j 1, eq_ix2 j⟩
  have hb : t.val - 1 < cfg0.N := Nat.lt_of_le_of_lt (Nat.sub_le _ _) t.isLt
  have e1 : rowAt ⟨t.val - 1, hb⟩ r = rowAt t r :=
    Fin.ext (by show 64 * ((t.val - 1) / 4) + r.val = 64 * (t.val / 4) + r.val; omega)
  have e2 : 128 * ((t.val - 1) % 4) + 128 = 128 * (t.val % 4) := by omega
  have ih := scratch_eq m c (t.val - 1) hb r o
  rw [e1, e2] at ih
  refine (out_last_eq m c t h1 r o ih).trans ?_
  show _ = Finset.univ.sup (Cert.MaxMin.term (marr m c) (warr m c) (rowAt t r) o)
  rw [← Cert.MaxMin.upTo_all, h1]

/-- WHAT A LAST STEP WRITES BACK is its block of the product. -/
theorem flushed_eq (c : Dev nD) (t : Fin cfg0.N) (hf : (cfg0.win 2).flush t = true) :
    (dats m 0 c).flushed 2 t = ((cfg0.win 2).blk t).view.read (Elt Ideal) (Cert.MaxMin.prod (marr m c) (warr m c)) := by
  have h1 : t.val % 4 = 3 := (flush0_2 t).mp hf
  obtain ⟨-, -, -, -, e4, e5⟩ := idx_facts t
  rw [Cert.KernelIdeal.Value.flushed2]
  funext j
  show (outsAt0 m c t.val t.isLt).1 j = Cert.MaxMin.prod (marr m c) (warr m c) (((cfg0.win 2).blk t).view.emb j)
  refine (out_block_eq m c t h1 j).trans (congrArg _ ?_)
  funext a
  apply Fin.ext
  match a with
  | ⟨0, _⟩ => show 64 * (t.val / 4) + (j 0).val = win0_2.index t (0 : Fin 2) * 64 + 1 * (j 0).val; rw [e4]; omega
  | ⟨1, _⟩ => show (j 1).val = win0_2.index t (1 : Fin 2) * 256 + 1 * (j 1).val; rw [e5]; omega

/-- The sixteen written-back blocks tile the result array, so it ends holding the product. -/
theorem result_eq (c : Dev nD) : (dats m 0 c).arrAt 2 cfg0.N = Cert.MaxMin.prod (marr m c) (warr m c) :=
  (dats m 0 c).arrAt_eq_of_cover 2 (Cert.MaxMin.prod (marr m c) (warr m c)) (flushed_eq m c) fun i => by
    have hi0 : (i 0).val < 1024 := (i 0).isLt
    have hi1 : (i 1).val < 256 := (i 1).isLt
    have hN : cfg0.N = 64 := N_0
    obtain ⟨t, ht⟩ : ∃ t : Fin cfg0.N, t.val = 4 * ((i 0).val / 64) + 3 := ⟨⟨4 * ((i 0).val / 64) + 3, by omega⟩, rfl⟩
    obtain ⟨-, -, -, -, e4, e5⟩ := idx_facts t
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t (0 : Fin 2) * 64 ≤ (i 0).val ∧ (i 0).val < win0_2.index t (0 : Fin 2) * 64 + 64
      rw [e4]; omega
    | ⟨1, _⟩ =>
      show win0_2.index t (1 : Fin 2) * 256 ≤ (i 1).val ∧ (i 1).val < win0_2.index t (1 : Fin 2) * 256 + 256
      rw [e5]; omega

/-- The kernel's run, read: the result array at the max–min product of the argument arrays, which end unchanged. -/
theorem run : θ_run defs (onTc (τ := τ) (main (F := Ideal))) ⟨m, fun _ => 0, ρ⟩ fun r => ∀ c : Dev nD,
      r.2.mem ((c : Thread nD τ).loc main_v0) = Cert.MaxMin.prod (marr m c) (warr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩) (Cert.KernelIdeal.Value.run_blocks m ρ)

end Cert.KernelIdeal.Step

end
-- ==== Proof.RefIsProd.lean ====
/-
  The reference computes the max–min product. Its last operation is a host reduction with body `max` from −∞ along the
  middle axis of the rank-3 array `min (m broadcast along o) (clamp w broadcast along b)`; read at a result index
  (b, o) that is the fold of `max` over the 512 middle coordinates i of the array's entry at (b, i, o), and that entry
  is `min m[b,i] (min 1 (max 0 w[i,o]))` — the broadcasts only re-index. A fold of `max` from −∞ is the join.
-/
import proofs.«122941_j56281251447399_1_alg».proof.Proof.Gen.ReferenceIdeal.Read
import proofs.«122941_j56281251447399_1_alg».proof.Proof.MaxMinSpec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The rank-3 index over the result index (b, o) with middle coordinate i is (b, i, o). -/
theorem lift_eq (h : S1024x512x256.Reduces [1] S1024x256) (b : Fin 1024) (o : Fin 256) (i : Fin 512) :
    h.lift (ix2 b o) i = ix3 b i o := by
  funext a
  match a with
  | ⟨0, _⟩ => exact Fin.ext rfl
  | ⟨1, _⟩ => exact Fin.ext rfl
  | ⟨2, _⟩ => exact Fin.ext rfl

/-- The broadcast of `m` along the last axis reads (b, i, o) at (b, i); -/
theorem idx_m (b : Fin 1024) (i : Fin 512) (o : Fin 256) : idx_main_v1 (idx_main_v3 (ix3 b i o)) = ix2 b i :=
  funext fun a => Fin.ext (by match a with | ⟨0, _⟩ => rfl | ⟨1, _⟩ => rfl)

/-- the broadcast of the clamped `w` along the first axis reads it at (i, o). -/
theorem idx_w (b : Fin 1024) (i : Fin 512) (o : Fin 256) : idx_main_v2 (idx_main_v4 (ix3 b i o)) = ix2 i o :=
  funext fun a => Fin.ext (by match a with | ⟨0, _⟩ => rfl | ⟨1, _⟩ => rfl)

/-- The rank-3 array at (b, i, o) is the product's term. -/
theorem entry_eq (x0 : FVec Ideal S1024x512 .f32) (x1 : FVec Ideal S512x256 .f32) (b : Fin 1024) (i : Fin 512) (o : Fin 256) :
    val_main_v5 (F := Ideal) x0 x1 (ix3 b i o) = Cert.MaxMin.term x0 x1 b o i := by
  rw [val_main_v5_apply, val_main_v3_apply, val_main_v1_apply, val_main_v4_apply, val_main_v2_apply, val_main_v0_apply,
    val_main_call0_v4_apply, val_main_call0_v3_apply, val_main_cst_0_apply, val_main_call0_v2_apply, val_main_call0_v1_apply,
    val_main_call0_v0_apply, val_main_cst_apply, idx_m, idx_w]
  rfl

/-- The reference's result is the max–min product of its arguments. -/
theorem ref_eq_prod (x0 : FVec Ideal S1024x512 .f32) (x1 : FVec Ideal S512x256 .f32) :
    val_main_v6 (F := Ideal) x0 x1 = Cert.MaxMin.prod x0 x1 := by
  funext j
  obtain ⟨b, o, rfl⟩ : ∃ (b : Fin 1024) (o : Fin 256), j = ix2 b o := ⟨j 0, j 1, eq_ix2 j⟩
  have h : S1024x512x256.Reduces [1] S1024x256 := by decide
  unfold val_main_v6
  rw [Host.reduce_eq_fold_single FloatOps.maximumf _ _ reducesTo_S1024x512x256_S1024x256_d1 h h_S_]
  show (Finset.univ : Finset (Fin 512)).fold max (Ideal.ofBits .f32 0xFF800000#32)
      (fun i : Fin 512 => val_main_v5 (F := Ideal) x0 x1 (h.lift (ix2 b o) i))
    = (Finset.univ : Finset (Fin 512)).sup (Cert.MaxMin.term x0 x1 b o)
  rw [Cert.MaxMin.fold_max_eq_sup]
  exact Finset.sup_congr rfl fun i _ => by rw [lift_eq, entry_eq]

end Cert.ReferenceIdeal.RefValue

end
-- ==== Proof.lean ====
/- The proof of `Cert.Claim` (proofs.«122941_j56281251447399_1_alg».proof.Defs).

   The kernel computes the max–min ("fuzzy") product out[b, o] = max over i of min (m[b, i]) (clamp w[i, o]), clamp x =
   min 1 (max 0 x), tile by tile: 16 row tiles of 64 rows, each reduced in 4 steps of 128 reduction indices into a running
   block that starts at −∞ and is updated by `max`. The reference computes the same product with one `max`-reduction over
   all 512 indices. On the extended reals `max` is the lattice join and −∞ its unit, so the four-step running maximum IS
   the join over all indices (Proof/MaxMinSpec.lean, the segment law); no finiteness of the inputs is used.

   frame_Kernel, frame_KernelIdeal — the generated frame runs. frame_ReferenceIdeal — the generated run of the host program,
   its result dropped. preserves — the idealization rewrote nothing. algebraic — the kernel's result array is the product
   (Proof/KernelRun.lean, over Proof/KernelPieces.lean and Proof/KernelUpdate.lean) and so is the reference's
   (Proof/RefIsProd.lean), of arguments that agree. -/
import proofs.«122941_j56281251447399_1_alg».proof.Defs
import proofs.«122941_j56281251447399_1_alg».proof.Proof.Gen.Kernel
import proofs.«122941_j56281251447399_1_alg».proof.Proof.Gen.Kernel.Skeleton
import proofs.«122941_j56281251447399_1_alg».proof.Proof.Gen.Kernel.Launch
import proofs.«122941_j56281251447399_1_alg».proof.Proof.Gen.Kernel.Points
import proofs.«122941_j56281251447399_1_alg».proof.Proof.Gen.Kernel.Frame
import proofs.«122941_j56281251447399_1_alg».proof.Proof.Gen.KernelIdeal
import proofs.«122941_j56281251447399_1_alg».proof.Proof.Gen.KernelIdeal.Skeleton
import proofs.«122941_j56281251447399_1_alg».proof.Proof.Gen.KernelIdeal.Launch
import proofs.«122941_j56281251447399_1_alg».proof.Proof.Gen.KernelIdeal.Points
import proofs.«122941_j56281251447399_1_alg».proof.Proof.Gen.KernelIdeal.Frame
import proofs.«122941_j56281251447399_1_alg».proof.Proof.Gen.ReferenceIdeal
import proofs.«122941_j56281251447399_1_alg».proof.Proof.Gen.Pre_finite_inputs
import proofs.«122941_j56281251447399_1_alg».proof.Proof.Gen.KernelIdeal.Value
import proofs.«122941_j56281251447399_1_alg».proof.Proof.Gen.ReferenceIdeal.Run
import proofs.«122941_j56281251447399_1_alg».proof.Proof.Gen.ReferenceIdeal.Read
import proofs.«122941_j56281251447399_1_alg».proof.Proof.KernelRun
import proofs.«122941_j56281251447399_1_alg».proof.Proof.RefIsProd
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both result arrays end at the max–min product of argument arrays that agree. -/
theorem algebraic : Cert.algebraic_KernelIdeal_ReferenceIdeal := by
  intro m ρ m' ρ' _ hagree
  refine ⟨fun c => Cert.MaxMin.prod (Cert.KernelIdeal.Step.marr m c) (Cert.KernelIdeal.Step.warr m c),
    Cert.KernelIdeal.Step.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq_prod, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
